-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S1024x1024 : Shape := ⟨2, ![1024, 1024]⟩
abbrev S1024 : Shape := ⟨1, ![1024]⟩
abbrev S1024x64 : Shape := ⟨2, ![1024, 64]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg5 : FVec F S1024x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg5
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  main_v23

def fn {F : FTy → Type} [FloatOps F] (main_arg0 : FVec F S8x4096x1024 .f32) (main_arg1 : IVec S8x4096 1) (main_arg2 : FVec F S1024x1024 .f32) (main_arg3 : FVec F S1024 .f32) (main_arg4 : FVec F S1024x64 .f32) (main_arg5 : FVec F S1024x64 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x64 .f32 := Host.absf main_arg4
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg5 main_v13 main_v16
-- ==== Kernel.lean ====
abbrev S8x4096x1024 : Shape := ⟨3, ![8, 4096, 1024]⟩
abbrev S8x4096 : Shape := ⟨2, ![8, 4096]⟩
abbrev S1024x1024 : Shape := ⟨2, ![1024, 1024]⟩
abbrev S1024 : Shape := ⟨1, ![1024]⟩
abbrev S1024x64 : Shape := ⟨2, ![1024, 64]⟩
abbrev S32768x1024 : Shape := ⟨2, ![32768, 1024]⟩
abbrev S32768x1 : Shape := ⟨2, ![32768, 1]⟩
abbrev S1x1024 : Shape := ⟨2, ![1, 1024]⟩
abbrev S64x1024 : Shape := ⟨2, ![64, 1024]⟩
abbrev S1024x1 : Shape := ⟨2, ![1024, 1]⟩

abbrev nBuf : Space → Nat
  | .hbm => 17
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i1⟩
  | .hbm, ⟨2, _⟩ => ⟨S1024x1024, .f32⟩
  | .hbm, ⟨3, _⟩ => ⟨S1024, .f32⟩
  | .hbm, ⟨4, _⟩ => ⟨S1024x64, .f32⟩
  | .hbm, ⟨5, _⟩ => ⟨S1024x64, .f32⟩
  | .hbm, ⟨6, _⟩ => ⟨S32768x1024, .f32⟩
  | .hbm, ⟨7, _⟩ => ⟨S32768x1, .i1⟩
  | .hbm, ⟨8, _⟩ => ⟨S32768x1, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024x64, .bf16⟩
  | .hbm, ⟨13, _⟩ => ⟨S64x1024, .f32⟩
  | .hbm, ⟨14, _⟩ => ⟨S64x1024, .bf16⟩
  | .hbm, ⟨15, _⟩ => ⟨S32768x1024, .f32⟩
  | .hbm, ⟨16, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x64, .bf16⟩
  | .local _ .vmem, ⟨5, _⟩ => ⟨S64x1024, .bf16⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  shapeCasts_S8x4096_S32768x1 : S8x4096.ShapeCasts S32768x1
  transposes_S1024x1024_S1024x1024_1_0 : S1024x1024.Transposes [1, 0] S1024x1024
  bitsLt_bf16_f32 : FTy.bits .bf16 < FTy.bits .f32
  shapeCasts_S1024_S1x1024 : S1024.ShapeCasts S1x1024
  transposes_S1024x64_S64x1024_1_0 : S1024x64.Transposes [1, 0] S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S32768x1024_S8x4096x1024 : S32768x1024.ShapeCasts S8x4096x1024
  dot_S1024x1024_S1024x1024_S1024x1024_1_0_0_1_n_n_wf : DotDims.WF S1024x1024 S1024x1024 S1024x1024 [1] [0] [0] [1] [] []
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .bf16 = 32 ∨ (Rect.block (s := S1024x64) S1024x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .bf16 = 32 ∨ (Rect.block (s := S64x1024) S64x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S32768x1.size a
  hwx0_5 : ∀ i : grid0.Coords, EltTy.bits .f32 = 32 ∨ (Rect.block (s := S32768x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S1024x1024 : Shape := ⟨2, ![1024, 1024]⟩
abbrev S1024 : Shape := ⟨1, ![1024]⟩
abbrev S1024x64 : Shape := ⟨2, ![1024, 64]⟩
abbrev S1x1x1024 : Shape := ⟨3, ![1, 1, 1024]⟩
abbrev S8x4096x64 : Shape := ⟨3, ![8, 4096, 64]⟩
abbrev S_ : Shape := ⟨0, ![]⟩
abbrev S8x4096x1 : Shape := ⟨3, ![8, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i1⟩
  | .hbm, ⟨2, _⟩ => ⟨S1024x1024, .f32⟩
  | .hbm, ⟨3, _⟩ => ⟨S1024, .f32⟩
  | .hbm, ⟨4, _⟩ => ⟨S1024x64, .f32⟩
  | .hbm, ⟨5, _⟩ => ⟨S1024x64, .f32⟩
  | .hbm, ⟨6, _⟩ => ⟨S8x4096x1024, .f32⟩
  | .hbm, ⟨7, _⟩ => ⟨S1x1x1024, .f32⟩
  | .hbm, ⟨8, _⟩ => ⟨S8x4096x1024, .f32⟩
  | .hbm, ⟨9, _⟩ => ⟨S8x4096x1024, .f32⟩
  | .hbm, ⟨10, _⟩ => ⟨S8x4096x64, .f32⟩
  | .hbm, ⟨11, _⟩ => ⟨S_, .f32⟩
  | .hbm, ⟨12, _⟩ => ⟨S_, .f32⟩
  | .hbm, ⟨13, _⟩ => ⟨S8x4096x64, .f32⟩
  | .hbm, ⟨14, _⟩ => ⟨S8x4096x64, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8x4096, .f32⟩
  | .hbm, ⟨19, _⟩ => ⟨S8x4096, .f32⟩
  | .hbm, ⟨20, _⟩ => ⟨S8x4096x1, .f32⟩
  | .hbm, ⟨21, _⟩ => ⟨S8x4096x64, .f32⟩
  | .hbm, ⟨22, _⟩ => ⟨S8x4096x64, .f32⟩
  | .hbm, ⟨23, _⟩ => ⟨S8x4096x64, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x64, .f32⟩
  | .hbm, ⟨28, _⟩ => ⟨S8x4096x64, .f32⟩
  | .hbm, ⟨29, _⟩ => ⟨S8x4096x1, .i1⟩
  | .hbm, ⟨30, _⟩ => ⟨S8x4096x1, .f32⟩
  | .hbm, ⟨31, _⟩ => ⟨S8x4096x64, .f32⟩
  | .hbm, ⟨32, _⟩ => ⟨S8x4096x64, .f32⟩
  | .hbm, ⟨33, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x64 : S_.BroadcastsInDim S8x4096x64 (![] : Fin 0 → Fin S8x4096x64.rank)
  reducesTo_S8x4096x64_S8x4096_d2 : S8x4096x64.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x64_0_1_2 : S8x4096x1.BroadcastsInDim S8x4096x64 (![0, 1, 2] : Fin 3 → Fin S8x4096x64.rank)
  dot_S8x4096x1024_S1024x1024_S8x4096x1024_2_1_01_0_n_n_wf : DotDims.WF S8x4096x1024 S1024x1024 S8x4096x1024 [2] [1] [0, 1] [0] [] []
  dot_S8x4096x1024_S1024x64_S8x4096x64_2_0_01_1_n_n_wf : DotDims.WF S8x4096x1024 S1024x64 S8x4096x64 [2] [0] [0, 1] [1] [] []
  dot_S8x4096x64_S1024x64_S8x4096x1024_2_1_01_0_n_n_wf : DotDims.WF S8x4096x64 S1024x64 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S1024x64_S8x4096x64_2_0_01_1_n_n : DotDims S8x4096x1024 S1024x64 S8x4096x64 where
  lhsContracting := [2]
  rhsContracting := [0]
  lhsNonContracting := [0, 1]
  rhsNonContracting := [1]
  lhsBatch := []
  rhsBatch := []
  wf := dot_S8x4096x1024_S1024x64_S8x4096x64_2_0_01_1_n_n_wf
def dot_S8x4096x64_S1024x64_S8x4096x1024_2_1_01_0_n_n : DotDims S8x4096x64 S1024x64 S8x4096x1024 where
  lhsContracting := [2]
  rhsContracting := [1]
  lhsNonContracting := [0, 1]
  rhsNonContracting := [0]
  lhsBatch := []
  rhsBatch := []
  wf := dot_S8x4096x64_S1024x64_S8x4096x1024_2_1_01_0_n_n_wf

class Facts : Prop extends Facts₀ where

variable [Facts]
-- ==== Proof.Consts.lean ====
/-
  The two float constants on which the kernel and the reference differ in spelling, as the reals their words denote.
  The reference divides the logits by the square root of 1024; the kernel multiplies them by 2⁻⁵. Since 1024 = 32²,
  the square root is 32, and dividing an extended real by 32 is multiplying it by 1/32, at the infinities too.
-/
import Idealize.ShloMosaic.PureOps.Ideal

noncomputable section

namespace Cert.Attn

open Idealize.ShloMosaic

/-- The word `0x44800000` is the real 1024 (sign 0, exponent 137, no fraction: 2¹⁰). -/
theorem ofBits_1024 : Ideal.ofBits .f32 0x44800000#32 = ((1024 : ℝ) : EReal) := by
  simp [Ideal.ofBits, Ideal.ieee, -EReal.coe_mul]; norm_num

/-- The word `0x3D000000` is the real 1/32 (sign 0, exponent 122, no fraction: 2⁻⁵). -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num, Real.sqrt_sq (by norm_num)]

/-- Dividing by the square root of the word for 1024 is multiplying by the word for 2⁻⁵, on every extended real. -/
theorem div_sqrt_1024 (a : EReal) :
    Ideal.div a (Ideal.sqrt (Ideal.ofBits .f32 0x44800000#32)) = a * Ideal.ofBits .f32 0x3D000000#32 := by
  rw [ofBits_1024, sqrt_1024, ofBits_inv32, Ideal.div_coe (by norm_num)]

end Cert.Attn

end
-- ==== Proof.RowSpec.lean ====
/-
  One row of shared-codebook attention, as a function of that row of the input and of the parameters, over the
  extended reals. For a token with features `xr`:
    q e   = Σ_d xr d · W e d + bq e                       (the query projection, a linear layer)
    lg a  = (Σ_e q e · CK e a) · 2⁻⁵                      (the logits against the 64 codebook keys, scaled by 1/√1024)
    M     = max_a lg a                                     (from −∞)
    w a   = exp (lg a − M) / Σ_a' exp (lg a' − M) · mk     (the softmax weights, masked by the token's mask value)
    out d = Σ_a w a · CV d a                               (the codebook values mixed by the weights)
  Both programs compute this function of each row; nothing here depends on how rows are laid out in memory.
-/
import Idealize.ShloMosaic.PureOps.Ideal.Laws

noncomputable section

open scoped BigOperators

namespace Cert.Attn

open Idealize.ShloMosaic

/-- The softmax scale: the f32 word of 2⁻⁵ = 1/√1024. -/
def scale : EReal := Ideal.ofBits .f32 0x3D000000#32

/-- The f32 word of −∞, from which a row's maximum is taken. -/
def negInf : EReal := Ideal.ofBits .f32 0xFF800000#32

/-- The query projection of one row: `W` applied to the row, plus the bias. -/
def proj (xr : Fin 1024 → EReal) (W : Fin 1024 → Fin 1024 → EReal) (bq : Fin 1024 → EReal) (e : Fin 1024) : EReal :=
  (∑ d : Fin 1024, xr d * W e d) + bq e

/-- The scaled logits of a query against the codebook keys. -/
def logit (q : Fin 1024 → EReal) (CK : Fin 1024 → Fin 64 → EReal) (a : Fin 64) : EReal :=
  (∑ e : Fin 1024, q e * CK e a) * scale

/-- The largest logit of the row (the fold of `max` from −∞). -/
def rowMax (lg : Fin 64 → EReal) : EReal := (Finset.univ : Finset (Fin 64)).fold max negInf lg

/-- The exponential of a logit shifted by the row's maximum. -/
def expShift (lg : Fin 64 → EReal) (a : Fin 64) : EReal := Ideal.exp (lg a - rowMax lg)

/-- The masked softmax weight of codebook entry `a`. -/
def weight (lg : Fin 64 → EReal) (mk : EReal) (a : Fin 64) : EReal :=
  Ideal.div (expShift lg a) (∑ a' : Fin 64, expShift lg a') * mk

/-- The attention output of one row at feature `d`. -/
def rowOut (xr : Fin 1024 → EReal) (mk : EReal) (W : Fin 1024 → Fin 1024 → EReal) (bq : Fin 1024 → EReal)
    (CK CV : Fin 1024 → Fin 64 → EReal) (d : Fin 1024) : EReal :=
  ∑ a : Fin 64, weight (logit (proj xr W bq) CK) mk a * CV d a

/-- Taking the maximum with −∞ once more changes nothing: the fold already started there. -/
theorem max_negInf_rowMax (lg : Fin 64 → EReal) : max negInf (rowMax lg) = rowMax lg :=
  max_eq_right ((Finset.le_fold_max _).mpr (Or.inl le_rfl))

end Cert.Attn

end
-- ==== Proof.RefRow.lean ====
/-
  The reference program read one element at a time. Its result at token (b, l) and feature q is the row function
  `Cert.Attn.rowOut` of row (b, l) of the input, the token's mask value, and the parameters as stored:
  the reference contracts `x` with `W_Q` over `W_Q`'s second axis (a linear layer), the projected row with `C_K` over
  `C_K`'s first axis, and the masked weights with `C_V` over `C_V`'s second axis. Two places need a word beyond unfolding:
  the logits are divided by √1024 where the row function multiplies by 2⁻⁵ (`div_sqrt_1024`), and the row maximum is
  taken once more with −∞ (`max_negInf_rowMax`).
-/
import proofs.«416116_j28432683499588_3_alg».proof.Proof.Gen.ReferenceIdeal.Read
import proofs.«416116_j28432683499588_3_alg».proof.Proof.Consts
import proofs.«416116_j28432683499588_3_alg».proof.Proof.RowSpec

noncomputable section

open scoped BigOperators

namespace Cert.Attn.Ref

open Cert.ReferenceIdeal Cert.ReferenceIdeal.Gen Cert.ReferenceIdeal.Read Idealize.ShloMosaic Idealize.ShloMosaic.ValueIdx Cert.Attn

variable (x0 : (⟨S8x4096x1024, .f32⟩ : BufTy).Contents (Elt Ideal)) (x1 : (⟨S8x4096, .i1⟩ : BufTy).Contents (Elt Ideal))
  (x2 : (⟨S1024x1024, .f32⟩ : BufTy).Contents (Elt Ideal)) (x3 : (⟨S1024, .f32⟩ : BufTy).Contents (Elt Ideal))
  (x4 x5 : (⟨S1024x64, .f32⟩ : BufTy).Contents (Elt Ideal))

/-! ## The arguments as plain functions of coordinates -/

/-- Row (b, l) of the input. -/
abbrev xrow (b : Fin 8) (l : Fin 4096) : Fin 1024 → EReal := fun d => x0 (ix3 b l d)
/-- The projection matrix, output feature first. -/
abbrev wq : Fin 1024 → Fin 1024 → EReal := fun e d => x2 (ix2 e d)
/-- The projection bias. -/
abbrev bq : Fin 1024 → EReal := fun e => x3 (ix1 e)
/-- The codebook keys, feature first. -/
abbrev ck : Fin 1024 → Fin 64 → EReal := fun e a => x4 (ix2 e a)
/-- The codebook values, feature first. -/
abbrev cv : Fin 1024 → Fin 64 → EReal := fun d a => x5 (ix2 d a)
/-- Token (b, l)'s mask bit as a float. -/
abbrev mk (b : Fin 8) (l : Fin 4096) : EReal := FloatOps.uitofp (F := Ideal) .f32 (x1 (ix2 b l))

/-- The logits of row (b, l). -/
abbrev lg (b : Fin 8) (l : Fin 4096) : Fin 64 → EReal := logit (proj (xrow x0 b l) (wq x2) (bq x3)) (ck x4)

/-! ## The operand indices the read lemmas name, at coordinates -/

theorem lidx0 (b : Fin 8) (l : Fin 4096) (e k : Fin 1024) : lidx_main_v0 (ix3 b l e) k = ix3 b l k :=
  funext fun a => Fin.ext (by match a with | ⟨0, _⟩ => rfl | ⟨1, _⟩ => rfl | ⟨2, _⟩ => rfl)
theorem ridx0 (b : Fin 8) (l : Fin 4096) (e k : Fin 1024) : ridx_main_v0 (ix3 b l e) k = ix2 e k :=
  funext fun a => Fin.ext (by match a with | ⟨0, _⟩ => rfl | ⟨1, _⟩ => rfl)
theorem idx12 (b : Fin 8) (l : Fin 4096) (e : Fin 1024) : idx_main_v1 (idx_main_v2 (ix3 b l e)) = ix1 e :=
  funext fun a => Fin.ext (by match a with | ⟨0, _⟩ => rfl)
theorem lidx4 (b : Fin 8) (l : Fin 4096) (a : Fin 64) (k : Fin 1024) : lidx_main_v4 (ix3 b l a) k = ix3 b l k :=
  funext fun c => Fin.ext (by match c with | ⟨0, _⟩ => rfl | ⟨1, _⟩ => rfl | ⟨2, _⟩ => rfl)
theorem ridx4 (b : Fin 8) (l : Fin 4096) (a : Fin 64) (k : Fin 1024) : ridx_main_v4 (ix3 b l a) k = ix2 k a :=
  funext fun c => Fin.ext (by match c with | ⟨0, _⟩ => rfl | ⟨1, _⟩ => rfl)
theorem idxRow (b : Fin 8) (l : Fin 4096) (a : Fin 64) : idx_main_v11 (idx_main_v12 (ix3 b l a)) = ix2 b l :=
  funext fun c => Fin.ext (by match c with | ⟨0, _⟩ => rfl | ⟨1, _⟩ => rfl)
theorem idxRow' (b : Fin 8) (l : Fin 4096) (a : Fin 64) : idx_main_v16 (idx_main_v17 (ix3 b l a)) = ix2 b l :=
  funext fun c => Fin.ext (by match c with | ⟨0, _⟩ => rfl | ⟨1, _⟩ => rfl)
theorem idxMask (b : Fin 8) (l : Fin 4096) (a : Fin 64) : idx_main_v19 (idx_main_v21 (ix3 b l a)) = ix2 b l :=
  funext fun c => Fin.ext (by match c with | ⟨0, _⟩ => rfl | ⟨1, _⟩ => rfl)
theorem idx15 (b : Fin 8) (l : Fin 4096) (k : Fin 64) : idx_main_v15 (ix2 b l) k = ix3 b l k :=
  funext fun c => Fin.ext (by match c with | ⟨0, _⟩ => rfl | ⟨1, _⟩ => rfl | ⟨2, _⟩ => rfl)
theorem lidx23 (b : Fin 8) (l : Fin 4096) (q : Fin 1024) (k : Fin 64) : lidx_main_v23 (ix3 b l q) k = ix3 b l k :=
  funext fun c => Fin.ext (by match c with | ⟨0, _⟩ => rfl | ⟨1, _⟩ => rfl | ⟨2, _⟩ => rfl)
theorem ridx23 (b : Fin 8) (l : Fin 4096) (q : Fin 1024) (k : Fin 64) : ridx_main_v23 (ix3 b l q) k = ix2 q k :=
  funext fun c => Fin.ext (by match c with | ⟨0, _⟩ => rfl | ⟨1, _⟩ => rfl)

/-! ## The stages, one after another -/

/-- The projected row: `x @ W_Qᵀ + b_Q` at (b, l, e). -/
theorem proj_eq (b : Fin 8) (l : Fin 4096) (e : Fin 1024) :
    val_main_v3 (F := Ideal) x0 x2 x3 (ix3 b l e) = proj (xrow x0 b l) (wq x2) (bq x3) e := by
  rw [val_main_v3_apply, val_main_v0_apply, val_main_v2_apply, val_main_v1_apply, idx12]
  simp only [Ideal.addf_def, lidx0, ridx0]
  rfl

/-- The scaled logits: the projected row against the keys, divided by √1024. -/
theorem logit_eq (b : Fin 8) (l : Fin 4096) (a : Fin 64) :
    val_main_v7 (F := Ideal) x0 x2 x3 x4 (ix3 b l a) = lg x0 x2 x3 x4 b l a := by
  rw [val_main_v7_apply, val_main_v4_apply, val_main_v6_apply, val_main_v5_apply, val_main_cst_apply]
  simp only [Ideal.hostDivf_def, Ideal.hostUnary_sqrt_def, Ideal.ofBits_def, lidx4, ridx4, proj_eq]
  rw [div_sqrt_1024]
  rfl

/-- Dropping the last axis of an [8, 4096, 64] array leaves an [8, 4096] one. -/
theorem reduces_last : S8x4096x64.Reduces [2] S8x4096 := by decide

/-- The row maximum: the fold of `max` over the 64 logits, from −∞, and once more against −∞. -/
theorem rowMax_eq (b : Fin 8) (l : Fin 4096) :
    val_main_v10 (F := Ideal) x0 x2 x3 x4 (ix2 b l) = rowMax (lg x0 x2 x3 x4 b l) := by
  rw [val_main_v10_apply, val_main_v9_apply, val_main_cst_1_apply]
  unfold val_main_v8
  rw [Host.reduce_eq_fold_single FloatOps.maximumf _ _ reducesTo_S8x4096x64_S8x4096_d2 reduces_last h_S_ (ix2 b l)]
  simp only [Ideal.maximumf_def, Ideal.ofBits_def]
  have hf : (val_main_v7 (F := Ideal) x0 x2 x3 x4 ∘ reduces_last.lift (ix2 b l)) = lg x0 x2 x3 x4 b l :=
    funext fun k =>
      (congrArg (val_main_v7 (F := Ideal) x0 x2 x3 x4) (funext fun c => Fin.ext (by
        match c with | ⟨0, _⟩ => rfl | ⟨1, _⟩ => rfl | ⟨2, _⟩ => rfl))).trans (logit_eq x0 x2 x3 x4 b l k)
  rw [hf]
  exact max_negInf_rowMax _

/-- The shifted exponentials. -/
theorem expShift_eq (b : Fin 8) (l : Fin 4096) (a : Fin 64) :
    val_main_v14 (F := Ideal) x0 x2 x3 x4 (ix3 b l a) = expShift (lg x0 x2 x3 x4 b l) a := by
  rw [val_main_v14_apply, val_main_v13_apply, val_main_v12_apply, val_main_v11_apply, idxRow, rowMax_eq, logit_eq]
  rfl

/-- The softmax: each shifted exponential over their sum. -/
theorem softmax_eq (b : Fin 8) (l : Fin 4096) (a : Fin 64) :
    val_main_v18 (F := Ideal) x0 x2 x3 x4 (ix3 b l a)
      = Ideal.div (expShift (lg x0 x2 x3 x4 b l) a) (∑ a' : Fin 64, expShift (lg x0 x2 x3 x4 b l) a') := by
  rw [val_main_v18_apply, val_main_v17_apply, val_main_v16_apply, idxRow', val_main_v15_apply, val_main_cst_2_apply,
    expShift_eq]
  simp only [Ideal.hostDivf_def, Ideal.ofBits_def, Ideal.ofBits_zero_f32, zero_add, idx15, expShift_eq]

/-- The masked weights. -/
theorem weight_eq (b : Fin 8) (l : Fin 4096) (a : Fin 64) :
    val_main_v22 (F := Ideal) x0 x1 x2 x3 x4 (ix3 b l a) = weight (lg x0 x2 x3 x4 b l) (mk x1 b l) a := by
  rw [val_main_v22_apply, val_main_v21_apply, val_main_v20_apply, val_main_v19_apply, idxMask, softmax_eq]
  rfl

/-- THE REFERENCE'S RESULT at (b, l, q) is the row function of row (b, l). -/
theorem result_row (b : Fin 8) (l : Fin 4096) (q : Fin 1024) :
    val_main_v23 (F := Ideal) x0 x1 x2 x3 x4 x5 (ix3 b l q)
      = rowOut (xrow x0 b l) (mk x1 b l) (wq x2) (bq x3) (ck x4) (cv x5) q := by
  rw [val_main_v23_apply]
  simp only [lidx23, ridx23, weight_eq]
  rfl

end Cert.Attn.Ref

end
-- ==== Proof.KernelRow.lean ====
/-
  The kernel's body at one element. On a block of 1024 rows the body computes, for row p and feature q, the row
  function `Cert.Attn.rowOut` of row p of the input block, the row's mask value, and the parameter blocks as the
  kernel holds them: the projection matrix and the codebook values TRANSPOSED (the body contracts its left operand's
  second axis with its right operand's first), the bias as one row, the mask as one column. The body's changes of
  float format are the identity on the extended reals; its three products are sums over the contracted axis; its two
  row reductions are the fold of `max` from −∞ and the sum over the 64 logits of the row.
-/
import proofs.«416116_j28432683499588_3_alg».proof.Proof.Gen.KernelIdeal.Skeleton
import proofs.«416116_j28432683499588_3_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Attn.Body

open Cert.KernelIdeal Cert.KernelIdeal.Gen Idealize.ShloMosaic Idealize.ShloMosaic.ValueIdx Cert.Attn

/-! ## The three products read at an index -/

/-! ### Product 1: the input block against the transposed projection matrix -/

theorem lhs1_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs1_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs1_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs1_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator the product at (p, c) is the sum over the contracted axis of row p of the left operand
    against column c of the right. -/
theorem mm1_apply (l : FVec Ideal S1024x1024 .bf16) (r : FVec Ideal S1024x1024 .bf16) (p : Fin 1024) (c : Fin 1024) :
    matmul dot_S1024x1024_S1024x1024_S1024x1024_1_0_0_1_n_n none l r (constant (F := Ideal) S1024x1024 .f32 0x00000000#32) (ix2 p c)
      = ∑ k : Fin 1024, l (ix2 p k) * r (ix2 k c) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p c) ((ValueIdx.contrEquiv1 dot_S1024x1024_S1024x1024_S1024x1024_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1024x1024_S1024x1024_S1024x1024_1_0_0_1_n_n.rhsIdx (ix2 p c) ((ValueIdx.contrEquiv1 dot_S1024x1024_S1024x1024_S1024x1024_1_0_0_1_n_n 1024 rfl rfl).symm k) = ix2 k c := funext fun a => Fin.ext (by
    match a with
    | ⟨0, _⟩ => exact (rhs1_0 _ _).trans hk
    | ⟨1, _⟩ => exact rhs1_1 _ _)
  rw [el, er]

/-! ### Product 2: the projected block against the codebook keys -/

theorem lhs2_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs2_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs2_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs2_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Into a zero accumulator the product at (p, c) is the sum over the contracted axis of row p of the left operand
    against column c of the right. -/
theorem mm2_apply (l : FVec Ideal S1024x1024 .bf16) (r : FVec Ideal S1024x64 .bf16) (p : Fin 1024) (c : Fin 64) :
    matmul dot_S1024x1024_S1024x64_S1024x64_1_0_0_1_n_n none l r (constant (F := Ideal) S1024x64 .f32 0x00000000#32) (ix2 p c)
      = ∑ k : Fin 1024, l (ix2 p k) * r (ix2 k c) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p c) ((ValueIdx.contrEquiv1 dot_S1024x1024_S1024x64_S1024x64_1_0_0_1_n_n 1024 rfl rfl).symm k) = ix2 p k := funext fun a => Fin.ext (by
    match a with
    | ⟨0, _⟩ => exact lhs2_0 _ _
    | ⟨1, _⟩ => exact (lhs2_1 _ _).trans hk)
  have er : dot_S1024x1024_S1024x64_S1024x64_1_0_0_1_n_n.rhsIdx (ix2 p c) ((ValueIdx.contrEquiv1 dot_S1024x1024_S1024x64_S1024x64_1_0_0_1_n_n 1024 rfl rfl).symm k) = ix2 k c := funext fun a => Fin.ext (by
    match a with
    | ⟨0, _⟩ => exact (rhs2_0 _ _).trans hk
    | ⟨1, _⟩ => exact rhs2_1 _ _)
  rw [el, er]

/-! ### Product 3: the weights against the transposed codebook values -/

theorem lhs3_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs3_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs3_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs3_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- Into a zero accumulator the product at (p, c) is the sum over the contracted axis of row p of the left operand
    against column c of the right. -/
theorem mm3_apply (l : FVec Ideal S1024x64 .bf16) (r : FVec Ideal S64x1024 .bf16) (p : Fin 1024) (c : Fin 1024) :
    matmul dot_S1024x64_S64x1024_S1024x1024_1_0_0_1_n_n none l r (constant (F := Ideal) S1024x1024 .f32 0x00000000#32) (ix2 p c)
      = ∑ k : Fin 64, l (ix2 p k) * r (ix2 k c) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 p c) ((ValueIdx.contrEquiv1 dot_S1024x64_S64x1024_S1024x1024_1_0_0_1_n_n 64 rfl rfl).symm k) = ix2 p k := funext fun a => Fin.ext (by
    match a with
    | ⟨0, _⟩ => exact lhs3_0 _ _
    | ⟨1, _⟩ => exact (lhs3_1 _ _).trans hk)
  have er : dot_S1024x64_S64x1024_S1024x1024_1_0_0_1_n_n.rhsIdx (ix2 p c) ((ValueIdx.contrEquiv1 dot_S1024x64_S64x1024_S1024x1024_1_0_0_1_n_n 64 rfl rfl).symm k) = ix2 k c := funext fun a => Fin.ext (by
    match a with
    | ⟨0, _⟩ => exact (rhs3_0 _ _).trans hk
    | ⟨1, _⟩ => exact rhs3_1 _ _)
  rw [el, er]

/-! ## The layout operations and the row reductions read at an index -/

/-- A column [1024, 1] broadcast along the 64 logits reads the column's entry of the row. -/
theorem bcol_at (v : FVec Ideal S1024x1 .f32) (p : Fin 1024) (a : Fin 64) :
    broadcastTo S1024x64 v broadcasts_S1024x1_S1024x64 (ix2 p a) = v (ix2 p (0 : Fin 1)) := by
  refine broadcastTo_apply v broadcasts_S1024x1_S1024x64 (ix2 p a) (ix2 p (0 : Fin 1)) fun ax => ?_
  match ax with
  | ⟨0, _⟩ =>
    show p.val = if (1024 : Nat) = 1 then 0 else p.val
    rw [if_neg (by decide)]
  | ⟨1, _⟩ => rfl

/-- A vector of 1024 row values viewed as a column reads the row's value. -/
theorem col_at (u : FVec Ideal S1024 .f32) (p : Fin 1024) :
    shapeCast S1024x1 u shapeCasts_S1024_S1024x1 (ix2 p (0 : Fin 1)) = u (ix1 p) := by
  refine shapeCast_apply u shapeCasts_S1024_S1024x1 (ix2 p (0 : Fin 1)) (ix1 p) ?_
  rw [Shape.rowMajor_val_one, Shape.rowMajor_val_two]
  show p.val = p.val * 1 + 0
  omega

/-- The row maximum: the reduction by `max` over the second axis, from −∞, at row p. -/
theorem rowmax_at (v : FVec Ideal S1024x64 .f32) (hφ : FKind.Formats .f32)
    (hacc : (0xFF800000#32 : BitVec 32) = 0xFF800000#32) (p : Fin 1024) :
    multiReduction .maximumf [1] S1024 v 0xFF800000#32 reduces_S1024x64_S1024 hφ hacc (ix1 p)
      = rowMax (fun a => v (ix2 p a)) := by
  refine (Ideal.multiReduction_maximumf_single v 0xFF800000#32 reduces_S1024x64_S1024 hφ hacc (ix1 p)).trans ?_
  exact congrArg (fun f => (Finset.univ : Finset (Fin 64)).fold max negInf f) (funext fun k =>
    congrArg v (funext fun c => Fin.ext (by match c with | ⟨0, _⟩ => rfl | ⟨1, _⟩ => rfl)))

/-- The row sum: the reduction by addition over the second axis at row p. -/
theorem rowsum_at (v : FVec Ideal S1024x64 .f32) (hφ : FKind.Formats .f32)
    (hacc : (0x00000000#32 : BitVec 32) = 0x00000000#32) (p : Fin 1024) :
    multiReduction .add [1] S1024 v 0x00000000#32 reduces_S1024x64_S1024 hφ hacc (ix1 p)
      = ∑ a : Fin 64, v (ix2 p a) := by
  refine (Ideal.multiReduction_add_single v 0x00000000#32 reduces_S1024x64_S1024 hφ hacc (ix1 p)).trans ?_
  exact Finset.sum_congr rfl fun k _ =>
    congrArg v (funext fun c => Fin.ext (by match c with | ⟨0, _⟩ => rfl | ⟨1, _⟩ => rfl))

/-! ## The body's stages -/

variable (x0 : FVec Ideal S1024x1024 .f32) (x1 : FVec Ideal S1024x1024 .bf16) (x2 : FVec Ideal S1x1024 .f32)
  (x3 : FVec Ideal S1024x64 .bf16) (x4 : FVec Ideal S64x1024 .bf16) (x5 : FVec Ideal S1024x1 .f32)

/-- The projected block: the input block times the transposed projection matrix, plus the bias row. -/
def projBlk : FVec Ideal S1024x1024 .f32 :=
  addf (matmul dot_S1024x1024_S1024x1024_S1024x1024_1_0_0_1_n_n none
      (truncf .bf16 (shapeCast S1024x1024 x0 shapeCasts_S1024x1024_S1024x1024) bitsLt_bf16_f32)
      (shapeCast S1024x1024 x1 shapeCasts_S1024x1024_S1024x1024) (constant S1024x1024 .f32 0x00000000#32))
    (broadcastTo S1024x1024 (shapeCast S1x1024 x2 shapeCasts_S1x1024_S1x1024) broadcasts_S1x1024_S1024x1024)

/-- The scaled logits of the block. -/
def logitBlk : FVec Ideal S1024x64 .f32 :=
  mulf (matmul dot_S1024x1024_S1024x64_S1024x64_1_0_0_1_n_n none (truncf .bf16 (projBlk x0 x1 x2) bitsLt_bf16_f32)
      (shapeCast S1024x64 x3 shapeCasts_S1024x64_S1024x64) (constant S1024x64 .f32 0x00000000#32))
    (broadcast S1024x64 (Scalar.ofBits .f32 0x3D000000#32))

/-- The exponentials of the logits shifted by their row's maximum. -/
def expBlk : FVec Ideal S1024x64 .f32 :=
  exp (subf (logitBlk x0 x1 x2 x3) (broadcastTo S1024x64 (shapeCast S1024x1
    (multiReduction .maximumf [1] S1024 (logitBlk x0 x1 x2 x3) 0xFF800000#32 reduces_S1024x64_S1024 (.inl rfl) rfl)
    shapeCasts_S1024_S1024x1) broadcasts_S1024x1_S1024x64))

/-- The masked softmax weights of the block. -/
def weightBlk : FVec Ideal S1024x64 .f32 :=
  mulf (divf (expBlk x0 x1 x2 x3) (broadcastTo S1024x64 (shapeCast S1024x1
      (multiReduction .add [1] S1024 (expBlk x0 x1 x2 x3) 0x00000000#32 reduces_S1024x64_S1024 (.inl rfl) rfl)
      shapeCasts_S1024_S1024x1) broadcasts_S1024x1_S1024x64))
    (broadcastTo S1024x64 (shapeCast S1024x1 x5 shapeCasts_S1024x1_S1024x1) broadcasts_S1024x1_S1024x64)

/-- The body's stored value is the weights times the transposed codebook values. -/
theorem pay_eq : k0_pay1 (F := Ideal) x0 x1 x2 x3 x5 x4
    = matmul dot_S1024x64_S64x1024_S1024x1024_1_0_0_1_n_n none (truncf .bf16 (weightBlk x0 x1 x2 x3 x5) bitsLt_bf16_f32)
        (shapeCast S64x1024 x4 shapeCasts_S64x1024_S64x1024) (constant S1024x1024 .f32 0x00000000#32) := rfl

/-! ## The stages at an index -/

/-- Row p of the input block, the parameter blocks as functions of coordinates. -/
abbrev xrow (p : Fin 1024) : Fin 1024 → EReal := fun d => x0 (ix2 p d)
/-- The projection matrix, output feature first: the block holds its transpose. -/
abbrev wq : Fin 1024 → Fin 1024 → EReal := fun e d => x1 (ix2 d e)
/-- The bias: the block's one row. -/
abbrev bq : Fin 1024 → EReal := fun e => x2 (ix2 (0 : Fin 1) e)
/-- The codebook keys, feature first. -/
abbrev ck : Fin 1024 → Fin 64 → EReal := fun e a => x3 (ix2 e a)
/-- The codebook values, feature first: the block holds their transpose. -/
abbrev cv : Fin 1024 → Fin 64 → EReal := fun d a => x4 (ix2 a d)
/-- The logits of row p. -/
abbrev lg (p : Fin 1024) : Fin 64 → EReal := logit (proj (xrow x0 p) (wq x1) (bq x2)) (ck x3)

theorem projBlk_at (p e : Fin 1024) : projBlk x0 x1 x2 (ix2 p e) = proj (xrow x0 p) (wq x1) (bq x2) e := by
  unfold projBlk
  rw [shapeCast_self, shapeCast_self, shapeCast_self, addf_apply, mm1_apply,
    broadcastTo_1b_ab_apply]
  rfl

theorem logitBlk_at (p : Fin 1024) (a : Fin 64) : logitBlk x0 x1 x2 x3 (ix2 p a) = lg x0 x1 x2 x3 p a := by
  unfold logitBlk
  rw [shapeCast_self, mulf_apply, mm2_apply]
  simp only [truncf_apply, projBlk_at]
  rfl

theorem expBlk_at (p : Fin 1024) (a : Fin 64) : expBlk x0 x1 x2 x3 (ix2 p a) = expShift (lg x0 x1 x2 x3 p) a := by
  unfold expBlk
  show FloatOps.exp (subf _ _ (ix2 p a)) = _
  rw [subf_apply, bcol_at, col_at, rowmax_at, logitBlk_at]
  simp only [logitBlk_at]
  rfl

theorem weightBlk_at (p : Fin 1024) (a : Fin 64) :
    weightBlk x0 x1 x2 x3 x5 (ix2 p a) = weight (lg x0 x1 x2 x3 p) (x5 (ix2 p (0 : Fin 1))) a := by
  unfold weightBlk
  rw [shapeCast_self, mulf_apply, divf_apply, bcol_at, bcol_at, col_at, rowsum_at, expBlk_at]
  simp only [expBlk_at]
  rfl

/-- THE BODY'S VALUE at row p and feature q of the block is the row function of row p. -/
theorem pay_row (p q : Fin 1024) :
    k0_pay1 (F := Ideal) x0 x1 x2 x3 x5 x4 (ix2 p q)
      = rowOut (xrow x0 p) (x5 (ix2 p (0 : Fin 1))) (wq x1) (bq x2) (ck x3) (cv x4) q := by
  rw [pay_eq, shapeCast_self, mm3_apply]
  simp only [truncf_apply, weightBlk_at]
  rfl

end Cert.Attn.Body

end
-- ==== Proof.KernelArrays.lean ====
/-
  The arrays the kernel's region works on, in terms of the program's arguments. Before the region the host reshapes
  the input [8, 4096, 1024] to [32768, 1024] (token (b, l) becomes row 4096 b + l) and the mask [8, 4096] to a column
  [32768, 1] of floats, transposes the projection matrix and the codebook values, views the bias as one row, and
  narrows the float format of the parameters, which changes no extended real. The region's grid has 32 points; at
  point t the input, mask and output windows hold rows 1024 t … 1024 t + 1023 of their arrays, and every parameter
  window holds its whole array.
-/
import proofs.«416116_j28432683499588_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.Attn.Arrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arguments, at their literal types -/

/-- The input, [8, 4096, 1024]. -/
abbrev argX (c : Dev nD) : S8x4096x1024.Idx → EReal := m ((c : Thread nD τ).loc main_arg0)
/-- The token mask, [8, 4096], one bit each. -/
abbrev argMask (c : Dev nD) : S8x4096.Idx → BitVec 1 := m ((c : Thread nD τ).loc main_arg1)
/-- The projection matrix, [1024, 1024], output feature first. -/
abbrev argW (c : Dev nD) : S1024x1024.Idx → EReal := m ((c : Thread nD τ).loc main_arg2)
/-- The projection bias, [1024]. -/
abbrev argB (c : Dev nD) : S1024.Idx → EReal := m ((c : Thread nD τ).loc main_arg3)
/-- The codebook keys, [1024, 64]. -/
abbrev argCK (c : Dev nD) : S1024x64.Idx → EReal := m ((c : Thread nD τ).loc main_arg4)
/-- The codebook values, [1024, 64]. -/
abbrev argCV (c : Dev nD) : S1024x64.Idx → EReal := m ((c : Thread nD τ).loc main_arg5)

/-! ## What the host operations before the region leave -/

theorem V_rows (c : Dev nD) : V m c main_v0
    = shapeCast S32768x1024 (argX m c) shapeCasts_S8x4096x1024_S32768x1024 := by
  show StableHlo.after hostOps0 (fun b => m (c, b)) (Proc.devRef .tc main_v0) = _
  after_results
  rfl

theorem V_mask (c : Dev nD) : V m c main_v2
    = uitofp (F := Ideal) .f32 (shapeCast S32768x1 (argMask m c) shapeCasts_S8x4096_S32768x1) := by
  show StableHlo.after hostOps0 (fun b => m (c, b)) (Proc.devRef .tc main_v2) = _
  after_results
  rfl

theorem V_wT (c : Dev nD) : V m c main_v4
    = truncf (F := Ideal) .bf16 (transpose S1024x1024 [1, 0] (argW m c) transposes_S1024x1024_S1024x1024_1_0) bitsLt_bf16_f32 := by
  show StableHlo.after hostOps0 (fun b => m (c, b)) (Proc.devRef .tc main_v4) = _
  after_results

theorem V_bias (c : Dev nD) : V m c main_v5 = shapeCast S1x1024 (argB m c) shapeCasts_S1024_S1x1024 := by
  show StableHlo.after hostOps0 (fun b => m (c, b)) (Proc.devRef .tc main_v5) = _
  after_results
  rfl

theorem V_keys (c : Dev nD) : V m c main_v6 = truncf (F := Ideal) .bf16 (argCK m c) bitsLt_bf16_f32 := by
  show StableHlo.after hostOps0 (fun b => m (c, b)) (Proc.devRef .tc main_v6) = _
  after_results

theorem V_valsT (c : Dev nD) : V m c main_v8
    = truncf (F := Ideal) .bf16 (transpose S64x1024 [1, 0] (argCV m c) transposes_S1024x64_S64x1024_1_0) bitsLt_bf16_f32 := by
  show StableHlo.after hostOps0 (fun b => m (c, b)) (Proc.devRef .tc main_v8) = _
  after_results

/-! ## Those arrays at coordinates -/

/-- Row `4096 b + l` of the reshaped input is row (b, l) of the input. -/
theorem rows_at (c : Dev nD) (r : Fin 32768) (d : Fin 1024) (b : Fin 8) (l : Fin 4096) (h : r.val = b.val * 4096 + l.val) :
    (V m c main_v0 : S32768x1024.Idx → EReal) (ix2 r d) = argX m c (ix3 b l d) := by
  rw [V_rows]
  refine shapeCast_apply _ _ (ix2 r d) (ix3 b l d) ?_
  rw [Shape.rowMajor_val_three, Shape.rowMajor_val_two]
  show (b.val * 4096 + l.val) * 1024 + d.val = r.val * 1024 + d.val
  rw [h]

/-- Row `4096 b + l` of the mask column is token (b, l)'s mask bit as a float. -/
theorem mask_at (c : Dev nD) (r : Fin 32768) (b : Fin 8) (l : Fin 4096) (h : r.val = b.val * 4096 + l.val) :
    (V m c main_v2 : S32768x1.Idx → EReal) (ix2 r (0 : Fin 1)) = FloatOps.uitofp (F := Ideal) .f32 (argMask m c (ix2 b l)) := by
  rw [V_mask]
  show FloatOps.uitofp (F := Ideal) .f32 (shapeCast S32768x1 (argMask m c) shapeCasts_S8x4096_S32768x1 (ix2 r (0 : Fin 1))) = _
  refine congrArg _ (shapeCast_apply _ _ (ix2 r (0 : Fin 1)) (ix2 b l) ?_)
  rw [Shape.rowMajor_val_two, Shape.rowMajor_val_two]
  show b.val * 4096 + l.val = r.val * 1 + 0
  omega

/-- The transposed projection matrix at (d, e) is the matrix at (e, d). -/
theorem wT_at (c : Dev nD) (d e : Fin 1024) :
    (V m c main_v4 : S1024x1024.Idx → EReal) (ix2 d e) = argW m c (ix2 e d) := by
  rw [V_wT]
  exact transpose_ix2_apply (argW m c) transposes_S1024x1024_S1024x1024_1_0 d e

/-- The bias row at (0, e) is the bias at e. -/
theorem bias_at (c : Dev nD) (e : Fin 1024) :
    (V m c main_v5 : S1x1024.Idx → EReal) (ix2 (0 : Fin 1) e) = argB m c (ix1 e) := by
  rw [V_bias]
  exact shapeCast_a_1a_apply (argB m c) shapeCasts_S1024_S1x1024 0 e

/-- The keys are the keys. -/
theorem keys_at (c : Dev nD) (e : Fin 1024) (a : Fin 64) :
    (V m c main_v6 : S1024x64.Idx → EReal) (ix2 e a) = argCK m c (ix2 e a) := by
  rw [V_keys]
  rfl

/-- The transposed codebook values at (a, d) are the values at (d, a). -/
theorem valsT_at (c : Dev nD) (a : Fin 64) (d : Fin 1024) :
    (V m c main_v8 : S64x1024.Idx → EReal) (ix2 a d) = argCV m c (ix2 d a) := by
  rw [V_valsT]
  exact transpose_ix2_apply (argCV m c) transposes_S1024x64_S64x1024_1_0 a d

/-! ## The windows' blocks at a grid point -/

theorem hz : (![0, 0] : Fin 2 → Nat) = fun _ => 0 := funext fun a => by fin_cases a <;> rfl

/-- The printed index maps, decided over the 32 grid points: the input, the mask and the output move one block of
    rows per point; the parameters stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Window 0's block at point `t`, read at `y`, is its array at row `1024 t + y₀`. -/
theorem blk0_at (c : Dev nD) (t : Fin cfg0.N) (y : S1024x1024.Idx) (k : S32768x1024.Idx)
    (hk0 : (k 0).val = t.val * 1024 + (y 0).val) (hk1 : (k 1).val = (y 1).val) :
    (iblk m c 0 t : Vec Ideal S1024x1024 .f32) y = (V m c main_v0 : S32768x1024.Idx → Elt Ideal .f32) k := by
  have e := index_facts t
  unfold iblk
  rw [View.read_apply]
  show (V m c main_v0 : S32768x1024.Idx → Elt Ideal .f32) _ = _
  refine congrArg _ (funext fun a => Fin.ext ?_)
  match a with
  | ⟨0, _⟩ => show win0_0.index t 0 * 1024 + 1 * (y 0).val = (k 0).val; rw [hk0]; omega
  | ⟨1, _⟩ => show win0_0.index t 1 * 1024 + 1 * (y 1).val = (k 1).val; rw [hk1]; omega

/-- Window 1's block at point `t`, read at `y`, is its array at the same index: the block is the whole array. -/
theorem blk1_at (c : Dev nD) (t : Fin cfg0.N) (y : S1024x1024.Idx) (k : S1024x1024.Idx)
    (hk0 : (k 0).val = (y 0).val) (hk1 : (k 1).val = (y 1).val) :
    (iblk m c 1 t : Vec Ideal S1024x1024 .bf16) y = (V m c main_v4 : S1024x1024.Idx → Elt Ideal .bf16) k := by
  have e := index_facts t
  unfold iblk
  rw [View.read_apply]
  show (V m c main_v4 : S1024x1024.Idx → Elt Ideal .bf16) _ = _
  refine congrArg _ (funext fun a => Fin.ext ?_)
  match a with
  | ⟨0, _⟩ => show win0_1.index t 0 * 1024 + 1 * (y 0).val = (k 0).val; rw [hk0]; omega
  | ⟨1, _⟩ => show win0_1.index t 1 * 1024 + 1 * (y 1).val = (k 1).val; rw [hk1]; omega

/-- Window 2's block at point `t`, read at `y`, is its array at the same index: the block is the whole array. -/
theorem blk2_at (c : Dev nD) (t : Fin cfg0.N) (y : S1x1024.Idx) (k : S1x1024.Idx)
    (hk0 : (k 0).val = (y 0).val) (hk1 : (k 1).val = (y 1).val) :
    (iblk m c 2 t : Vec Ideal S1x1024 .f32) y = (V m c main_v5 : S1x1024.Idx → Elt Ideal .f32) k := by
  have e := index_facts t
  unfold iblk
  rw [View.read_apply]
  show (V m c main_v5 : S1x1024.Idx → Elt Ideal .f32) _ = _
  refine congrArg _ (funext fun a => Fin.ext ?_)
  match a with
  | ⟨0, _⟩ => show win0_2.index t 0 * 1 + 1 * (y 0).val = (k 0).val; rw [hk0]; omega
  | ⟨1, _⟩ => show win0_2.index t 1 * 1024 + 1 * (y 1).val = (k 1).val; rw [hk1]; omega

/-- Window 3's block at point `t`, read at `y`, is its array at the same index: the block is the whole array. -/
theorem blk3_at (c : Dev nD) (t : Fin cfg0.N) (y : S1024x64.Idx) (k : S1024x64.Idx)
    (hk0 : (k 0).val = (y 0).val) (hk1 : (k 1).val = (y 1).val) :
    (iblk m c 3 t : Vec Ideal S1024x64 .bf16) y = (V m c main_v6 : S1024x64.Idx → Elt Ideal .bf16) k := by
  have e := index_facts t
  unfold iblk
  rw [View.read_apply]
  show (V m c main_v6 : S1024x64.Idx → Elt Ideal .bf16) _ = _
  refine congrArg _ (funext fun a => Fin.ext ?_)
  match a with
  | ⟨0, _⟩ => show win0_3.index t 0 * 1024 + 1 * (y 0).val = (k 0).val; rw [hk0]; omega
  | ⟨1, _⟩ => show win0_3.index t 1 * 64 + 1 * (y 1).val = (k 1).val; rw [hk1]; omega

/-- Window 4's block at point `t`, read at `y`, is its array at the same index: the block is the whole array. -/
theorem blk4_at (c : Dev nD) (t : Fin cfg0.N) (y : S64x1024.Idx) (k : S64x1024.Idx)
    (hk0 : (k 0).val = (y 0).val) (hk1 : (k 1).val = (y 1).val) :
    (iblk m c 4 t : Vec Ideal S64x1024 .bf16) y = (V m c main_v8 : S64x1024.Idx → Elt Ideal .bf16) k := by
  have e := index_facts t
  unfold iblk
  rw [View.read_apply]
  show (V m c main_v8 : S64x1024.Idx → Elt Ideal .bf16) _ = _
  refine congrArg _ (funext fun a => Fin.ext ?_)
  match a with
  | ⟨0, _⟩ => show win0_4.index t 0 * 64 + 1 * (y 0).val = (k 0).val; rw [hk0]; omega
  | ⟨1, _⟩ => show win0_4.index t 1 * 1024 + 1 * (y 1).val = (k 1).val; rw [hk1]; omega

/-- Window 5's block at point `t`, read at `y`, is its array at row `1024 t + y₀`. -/
theorem blk5_at (c : Dev nD) (t : Fin cfg0.N) (y : S1024x1.Idx) (k : S32768x1.Idx)
    (hk0 : (k 0).val = t.val * 1024 + (y 0).val) (hk1 : (k 1).val = (y 1).val) :
    (iblk m c 5 t : Vec Ideal S1024x1 .f32) y = (V m c main_v2 : S32768x1.Idx → Elt Ideal .f32) k := by
  have e := index_facts t
  unfold iblk
  rw [View.read_apply]
  show (V m c main_v2 : S32768x1.Idx → Elt Ideal .f32) _ = _
  refine congrArg _ (funext fun a => Fin.ext ?_)
  match a with
  | ⟨0, _⟩ => show win0_5.index t 0 * 1024 + 1 * (y 0).val = (k 0).val; rw [hk0]; omega
  | ⟨1, _⟩ => show win0_5.index t 1 * 1 + 1 * (y 1).val = (k 1).val; rw [hk1]; omega

end Cert.Attn.Arrays

end
-- ==== Proof.KernelValue.lean ====
/-
  The kernel's result as one function of the program's arguments. At grid point t the body writes rows
  1024 t … 1024 t + 1023 of the output array, each the row function of the matching row of the reshaped input; the
  32 blocks tile the [32768, 1024] array (row r lies in block r / 1024), so after the region the array holds, at row
  r = 4096 b + l, the attention output of token (b, l). The host's last operation views the array as [8, 4096, 1024].
-/
import proofs.«416116_j28432683499588_3_alg».proof.Proof.KernelRow
import proofs.«416116_j28432683499588_3_alg».proof.Proof.KernelArrays

noncomputable section

open scoped BigOperators

namespace Cert.Attn.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.Attn Cert.Attn.Arrays

variable (m : (ℓ : Loc nD τ sig) → Buf (Elt Ideal) ℓ) (ρ : Dev nD → PrngReg)

/-- The row function depends only on its arguments' values. -/
theorem rowOut_congr {xr xr' : Fin 1024 → EReal} {mk mk' : EReal} {W W' : Fin 1024 → Fin 1024 → EReal}
    {bq bq' : Fin 1024 → EReal} {CK CK' CV CV' : Fin 1024 → Fin 64 → EReal}
    (h1 : xr = xr') (h2 : mk = mk') (h3 : W = W') (h4 : bq = bq') (h5 : CK = CK') (h6 : CV = CV') (q : Fin 1024) :
    rowOut xr mk W bq CK CV q = rowOut xr' mk' W' bq' CK' CV' q := by
  subst h1 h2 h3 h4 h5 h6; rfl

/-! ## The attention output of a token, from the arguments -/

/-- Token (b, l)'s output row: the row function of row (b, l) of the input, the token's mask bit, the parameters. -/
def tokenOut (c : Dev nD) (b : Fin 8) (l : Fin 4096) : Fin 1024 → EReal :=
  rowOut (fun d => argX m c (ix3 b l d)) (FloatOps.uitofp (F := Ideal) .f32 (argMask m c (ix2 b l)))
    (fun e d => argW m c (ix2 e d)) (fun e => argB m c (ix1 e)) (fun e a => argCK m c (ix2 e a))
    (fun d a => argCV m c (ix2 d a))

/-- The batch entry of row r of the flattened tokens. -/
def batchOf (j : S32768x1024.Idx) : Fin 8 := ⟨(j 0).val / 4096, by have := idx2_lt0 j; omega⟩
/-- The position of row r within its batch entry. -/
def posOf (j : S32768x1024.Idx) : Fin 4096 := ⟨(j 0).val % 4096, by omega⟩
/-- The feature of an index of the flattened output. -/
def featOf (j : S32768x1024.Idx) : Fin 1024 := ⟨(j 1).val, idx2_lt1 j⟩

/-- The flattened output array: row r holds the output of token (r / 4096, r % 4096). -/
def outArr (c : Dev nD) : S32768x1024.Idx → EReal := fun j => tokenOut m c (batchOf j) (posOf j) (featOf j)

/-! ## One grid point -/

/-- What the body computes at point t, at row p and feature q of its block, is the flattened output at row
    1024 t + p: each block of the body's operands read through to the arguments. -/
theorem point_at (c : Dev nD) (t : Fin cfg0.N) (p q : Fin 1024) (k : S32768x1024.Idx)
    (hk0 : (k 0).val = t.val * 1024 + p.val) (hk1 : (k 1).val = q.val) :
    k0_pay1 (F := Ideal) (iblk m c 0 t) (iblk m c 1 t) (iblk m c 2 t) (iblk m c 3 t) (iblk m c 5 t) (iblk m c 4 t) (ix2 p q)
      = outArr m c k := by
  have hlt : (k 0).val < 32768 := idx2_lt0 k
  have hr : (k 0).val = (batchOf k).val * 4096 + (posOf k).val := by
    show (k 0).val = (k 0).val / 4096 * 4096 + (k 0).val % 4096
    omega
  refine (Body.pay_row (iblk m c 0 t) (iblk m c 1 t) (iblk m c 2 t) (iblk m c 3 t) (iblk m c 4 t) (iblk m c 5 t) p q).trans ?_
  have hq : q = featOf k := Fin.ext hk1.symm
  unfold outArr tokenOut
  rw [← hq]
  refine rowOut_congr ?_ ?_ ?_ ?_ ?_ ?_ q
  · exact funext fun d => (blk0_at m c t (ix2 p d) (ix2 ⟨(k 0).val, hlt⟩ d) hk0 rfl).trans
      (rows_at m c ⟨(k 0).val, hlt⟩ d (batchOf k) (posOf k) hr)
  · exact (blk5_at m c t (ix2 p (0 : Fin 1)) (ix2 ⟨(k 0).val, hlt⟩ (0 : Fin 1)) hk0 rfl).trans
      (mask_at m c ⟨(k 0).val, hlt⟩ (batchOf k) (posOf k) hr)
  · exact funext fun e => funext fun d => (blk1_at m c t (ix2 d e) (ix2 d e) rfl rfl).trans (wT_at m c d e)
  · exact funext fun e => (blk2_at m c t (ix2 (0 : Fin 1) e) (ix2 (0 : Fin 1) e) rfl rfl).trans (bias_at m c e)
  · exact funext fun e => funext fun a => (blk3_at m c t (ix2 e a) (ix2 e a) rfl rfl).trans (keys_at m c e a)
  · exact funext fun d => funext fun a => (blk4_at m c t (ix2 a d) (ix2 a d) rfl rfl).trans (valsT_at m c a d)

/-- WHAT POINT t WRITES BACK is block t of the flattened output. -/
theorem flushed_eq (c : Dev nD) (t : Fin cfg0.N) :
    (dats m 0 c).flushed 6 t = ((cfg0.win 6).blk t).view.read (Elt Ideal) (outArr m c) := by
  obtain ⟨-, -, -, -, -, -, -, -, -, -, -, -, e0, e1⟩ := index_facts t
  show (cfg0.win 6).cut (grid0.coords t) ((dats m 0 c).after 6 t) = _
  rw [after0_6]
  unfold out0_6
  rw [View.canon_unit_zero hz]
  simp only [View.ld_unit_zero (S := S1024x1024) hz, View.ld_unit_zero (S := S1x1024) hz,
    View.ld_unit_zero (S := S1024x64) hz, View.ld_unit_zero (S := S1024x1) hz, View.ld_unit_zero (S := S64x1024) hz]
  funext j
  have hj0 : (j 0).val < 1024 := (j 0).isLt
  have hj1 : (j 1).val < 1024 := (j 1).isLt
  have hx : (cfg0.win 6).xinj (grid0.coords t) j = ix2 (⟨(j 0).val, hj0⟩ : Fin 1024) (⟨(j 1).val, hj1⟩ : Fin 1024) :=
    funext fun a => Fin.ext (by match a with | ⟨0, _⟩ => rfl | ⟨1, _⟩ => rfl)
  show k0_pay1 (F := Ideal) (iblk m c 0 t) (iblk m c 1 t) (iblk m c 2 t) (iblk m c 3 t) (iblk m c 5 t) (iblk m c 4 t)
      ((cfg0.win 6).xinj (grid0.coords t) j) = outArr m c (((cfg0.win 6).blk t).view.emb j)
  rw [hx]
  refine point_at m c t _ _ _ ?_ ?_
  · show win0_6.index t 0 * 1024 + 1 * (j 0).val = t.val * 1024 + (j 0).val
    rw [e0]; omega
  · show win0_6.index t 1 * 1024 + 1 * (j 1).val = (j 1).val
    rw [e1]; omega

/-! ## The whole array -/

/-- An index of the output array lies in point t's block iff each coordinate is in the block's range. -/
theorem mem_blk (t : Fin cfg0.N) (i : S32768x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v9).slice (win0_6.rect t)).set ↔ _
  rw [View.set_slice_whole, Rect.mem_set_unit]
  exact Iff.rfl

/-- Row r of the output array lies in the block of point r / 1024. -/
theorem cover (i : S32768x1024.Idx) :
    ∃ t : Fin cfg0.N, (cfg0.win 6).flush t = true ∧ i ∈ ((cfg0.win 6).blk t).view.set := by
  have hN : cfg0.N = 32 := N_0
  have hi0 : (i 0).val < 32768 := idx2_lt0 i
  have hi1 : (i 1).val < 1024 := idx2_lt1 i
  let t : Fin cfg0.N := ⟨(i 0).val / 1024, by rw [hN]; omega⟩
  obtain ⟨-, -, -, -, -, -, -, -, -, -, -, -, e0, e1⟩ := index_facts t
  refine ⟨t, flush0_6 t, ?_⟩
  rw [mem_blk]
  intro a
  match a with
  | ⟨0, _⟩ =>
    show win0_6.index t 0 * 1024 ≤ (i 0).val ∧ (i 0).val < win0_6.index t 0 * 1024 + 1024
    rw [e0]; show (i 0).val / 1024 * 1024 ≤ (i 0).val ∧ (i 0).val < (i 0).val / 1024 * 1024 + 1024; omega
  | ⟨1, _⟩ =>
    show win0_6.index t 1 * 1024 ≤ (i 1).val ∧ (i 1).val < win0_6.index t 1 * 1024 + 1024
    rw [e1]; omega

/-- THE OUTPUT ARRAY after the region is the flattened output. -/
theorem final (c : Dev nD) : (dats m 0 c).arrAt 6 cfg0.N = outArr m c :=
  (dats m 0 c).arrAt_eq_of_cover 6 (outArr m c) (fun t _ => flushed_eq m c t) cover

/-! ## The host's last operation, and the run -/

/-- The result: the flattened output viewed as [8, 4096, 1024]. -/
def result (c : Dev nD) : S8x4096x1024.Idx → EReal :=
  shapeCast S8x4096x1024 (outArr m c) shapeCasts_S32768x1024_S8x4096x1024

/-- After the region the host's reshape reads the output array, which holds the flattened output. -/
theorem tail_eq (c : Dev nD) :
    Pipeline.afterTail₀ cfgs (dats m) 0 (V0 m) [hostOps1] c main_v10 = result m c := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.devRef .tc main_v9) = outArr m c :=
    (Pipeline.withArrays_arr spec0 launch0.win.arr_inj c _ _ 6).trans (final m c)
  rw [hw]
  rfl

/-- The result at token (b, l) and feature q is that token's output: row 4096 b + l of the flattened output. -/
theorem result_at (c : Dev nD) (b : Fin 8) (l : Fin 4096) (q : Fin 1024) :
    result m c (ix3 b l q) = tokenOut m c b l q := by
  have hr : b.val * 4096 + l.val < 32768 := by omega
  unfold result
  refine (shapeCast_apply (outArr m c) shapeCasts_S32768x1024_S8x4096x1024 (ix3 b l q)
    (ix2 (⟨b.val * 4096 + l.val, hr⟩ : Fin 32768) q) ?_).trans ?_
  · rw [Shape.rowMajor_val_two, Shape.rowMajor_val_three]
    rfl
  · have hb : batchOf (ix2 (⟨b.val * 4096 + l.val, hr⟩ : Fin 32768) q) = b :=
      Fin.ext (by show (b.val * 4096 + l.val) / 4096 = b.val; omega)
    have hl : posOf (ix2 (⟨b.val * 4096 + l.val, hr⟩ : Fin 32768) q) = l :=
      Fin.ext (by show (b.val * 4096 + l.val) % 4096 = l.val; omega)
    have hq : featOf (ix2 (⟨b.val * 4096 + l.val, hr⟩ : Fin 32768) q) = q := Fin.ext rfl
    unfold outArr
    rw [hb, hl, hq]

/-- THE RUN: every weakly fair execution of the kernel's program ends with the result array holding every token's
    attention output and the arguments as they were. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Attn.Kernel

end
-- ==== Proof.lean ====
/-
  Shared-codebook attention, [8, 4096, 1024] tokens against a codebook of 64 keys and values, with a query projection:
  for every token, out = (softmax ((x W_Qᵀ + b_Q) C_K / √1024) · mask) C_Vᵀ.

  The kernel flattens the tokens to 32768 rows and computes 1024 rows per grid point, with the projection matrix
  and the codebook values transposed on the host so that each of its three products contracts a second axis with a
  first; it scales the logits by 2⁻⁵. The reference contracts the arrays as given and divides by the square root
  of 1024. Over the extended reals both compute, for every token, one function of that token's row, its mask bit
  and the parameters (`Cert.Attn.rowOut`): a sum over a contracted axis does not depend on how the operand is laid
  out, a change of float format is the identity, √1024 = 32 and a division by 32 is the product with 1/32 at the
  infinities too, and a maximum taken from −∞ is unchanged by one more maximum with −∞. No finiteness of the inputs
  is used. The kernel's idealization rewrote no operation, so the fourth conjunct holds trivially.
-/
import proofs.«416116_j28432683499588_3_alg».proof.Defs
import proofs.«416116_j28432683499588_3_alg».proof.Proof.Gen.Kernel
import proofs.«416116_j28432683499588_3_alg».proof.Proof.Gen.Kernel.Skeleton
import proofs.«416116_j28432683499588_3_alg».proof.Proof.Gen.Kernel.Launch
import proofs.«416116_j28432683499588_3_alg».proof.Proof.Gen.Kernel.Points
import proofs.«416116_j28432683499588_3_alg».proof.Proof.Gen.Kernel.Frame
import proofs.«416116_j28432683499588_3_alg».proof.Proof.Gen.KernelIdeal
import proofs.«416116_j28432683499588_3_alg».proof.Proof.Gen.KernelIdeal.Skeleton
import proofs.«416116_j28432683499588_3_alg».proof.Proof.Gen.KernelIdeal.Launch
import proofs.«416116_j28432683499588_3_alg».proof.Proof.Gen.KernelIdeal.Points
import proofs.«416116_j28432683499588_3_alg».proof.Proof.Gen.KernelIdeal.Frame
import proofs.«416116_j28432683499588_3_alg».proof.Proof.Gen.ReferenceIdeal
import proofs.«416116_j28432683499588_3_alg».proof.Proof.Gen.Pre_finite_inputs
import proofs.«416116_j28432683499588_3_alg».proof.Proof.Gen.ReferenceIdeal.Run
import proofs.«416116_j28432683499588_3_alg».proof.Proof.Gen.ReferenceIdeal.Read
import proofs.«416116_j28432683499588_3_alg».proof.Proof.RefRow
import proofs.«416116_j28432683499588_3_alg».proof.Proof.KernelValue
import Idealize.ShloMosaic.Adequacy
import Idealize.ShloMosaic.Init

noncomputable section

namespace Cert.Proof

open Idealize.ShloMosaic Idealize.ShloMosaic.ValueIdx Idealize.SL.Sem

/-- The kernel's program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with every token's attention output: the kernel's
    result array at (b, l, q) is row `4096 b + l` of its flattened output, the reference's is its last product at
    (b, l, q), and both are the row function of token (b, l). -/
theorem algebraic : Cert.algebraic_KernelIdeal_ReferenceIdeal := by
  intro m ρ m' ρ' _ hagree
  refine ⟨fun c => Cert.Attn.Kernel.result m c, Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  refine (Cert.ReferenceIdeal.Read.val_main_v23_eq _ _ _ _ _ _).trans (funext fun i => ?_)
  obtain ⟨b, l, q, rfl⟩ : ∃ (b : Fin 8) (l : Fin 4096) (q : Fin 1024), i = ix3 b l q := ⟨i 0, i 1, i 2, eq_ix3 i⟩
  rw [Cert.Attn.Ref.result_row]
  show _ = Cert.Attn.Kernel.result m c (ix3 b l q)
  rw [Cert.Attn.Kernel.result_at]
  exact Cert.Attn.Kernel.rowOut_congr (funext fun d => congrFun h0 _) (congrArg _ (congrFun h1 _))
    (funext fun e => funext fun d => congrFun h2 _) (funext fun e => congrFun h3 _)
    (funext fun e => funext fun a => congrFun h4 _) (funext fun d => funext fun a => congrFun h5 _) q

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
